-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel

variable [Facts]

def fn {F : FTy → Type} [FloatOps F] (main_arg0 : FVec F S4x4096x1024 .f32) (main_arg1 : FVec F S4x4096x1024 .f32) (main_arg2 : FVec F S4x4096x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4096x1024 .f32 := Host.absf main_arg1
  let main_cst_0 : FVec F S_ .f32 := constant S_ .f32 0x7F800000#32
  let main_v5 : FVec F S4x4096x1024 .f32 := broadcastInDim S4x4096x1024 ![] bcast_S_S4x4096x1024 main_cst_0
  let main_v6 : IVec S4x4096x1024 1 := cmpf .olt main_v4 main_v5
  let main_c_1 : IVec S_ 1 := constantI S_ 1 1#1
  let main_v7 : IVec S_ 1 := (fun x v => Host.reduce IntOp.andi x v reducesTo_S4x4096x1024_S_d0_1_2 h_S_) main_v6 main_c_1
  let main_v8 : IVec S_ 1 := andi main_v3 main_v7
  let main_v9 : FVec F S4x4096x1024 .f32 := Host.absf main_arg2
  let main_cst_2 : FVec F S_ .f32 := constant S_ .f32 0x7F800000#32
  let main_v10 : FVec F S4x4096x1024 .f32 := broadcastInDim S4x4096x1024 ![] bcast_S_S4x4096x1024 main_cst_2
  let main_v11 : IVec S4x4096x1024 1 := cmpf .olt main_v9 main_v10
  let main_c_3 : IVec S_ 1 := constantI S_ 1 1#1
  let main_v12 : IVec S_ 1 := (fun x v => Host.reduce IntOp.andi x v reducesTo_S4x4096x1024_S_d0_1_2 h_S_) main_v11 main_c_3
  let main_v13 : IVec S_ 1 := andi main_v8 main_v12
  main_v13
-- ==== Kernel.lean ====
abbrev S4x4096x1024 : Shape := ⟨3, ![4, 4096, 1024]⟩
abbrev S4x4096x4096 : Shape := ⟨3, ![4, 4096, 4096]⟩
abbrev S1x256x1024 : Shape := ⟨3, ![1, 256, 1024]⟩
abbrev S1x512x1024 : Shape := ⟨3, ![1, 512, 1024]⟩
abbrev S1x256x512 : Shape := ⟨3, ![1, 256, 512]⟩
abbrev S256x1024 : Shape := ⟨2, ![256, 1024]⟩
abbrev S512x1024 : Shape := ⟨2, ![512, 1024]⟩
abbrev S256 : Shape := ⟨1, ![256]⟩
abbrev S256x1 : Shape := ⟨2, ![256, 1]⟩
abbrev S512 : Shape := ⟨1, ![512]⟩
abbrev S512x1 : Shape := ⟨2, ![512, 1]⟩
abbrev S1024x512 : Shape := ⟨2, ![1024, 512]⟩
abbrev S256x512 : Shape := ⟨2, ![256, 512]⟩

abbrev nBuf : Space → Nat
  | .hbm => 5
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x1024, .f32⟩
  | .hbm, ⟨4, _⟩ => ⟨S4x4096x4096, .f32⟩
  | .local _ .vmem, ⟨0, _⟩ => ⟨S1x256x1024, .f32⟩
  | .local _ .vmem, ⟨1, _⟩ => ⟨S1x256x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x512, .f32⟩
  | .local _ .vmem, ⟨9, _⟩ => ⟨S1x256x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 16, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S256x1024_S256 : S256x1024.Reduces [1] S256
  shapeCasts_S256_S256x1 : S256.ShapeCasts S256x1
  broadcasts_S256x1_S256x1024 : S256x1.Broadcasts S256x1024
  reduces_S512x1024_S512 : S512x1024.Reduces [1] S512
  shapeCasts_S512_S512x1 : S512.ShapeCasts S512x1
  broadcasts_S512x1_S512x1024 : S512x1.Broadcasts S512x1024
  bitsLt_bf16_f32 : FTy.bits .bf16 < FTy.bits .f32
  transposes_S512x1024_p1_0_S1024x512 : S512x1024.Transposes [1, 0] S1024x512
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  shapeCasts_S256x512_S1x256x512 : S256x512.ShapeCasts S1x256x512
  shapeCasts_S256x1024_S1x256x1024 : S256x1024.ShapeCasts S1x256x1024
  dot_S256x1024_S1024x512_S256x512_1_0_0_1_n_n_wf : DotDims.WF S256x1024 S1024x512 S256x512 [1] [0] [0] [1] [] []
  dot_S256x512_S512x1024_S256x1024_1_0_0_1_n_n_wf : DotDims.WF S256x512 S512x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S4x4096x1024.size a
  hwx0_0 : ∀ i : grid0.Coords, EltTy.bits .f32 = 32 ∨ (Rect.block (s := S4x4096x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S4x4096x1024.size a
  hwx0_1 : ∀ i : grid0.Coords, EltTy.bits .f32 = 32 ∨ (Rect.block (s := S4x4096x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S4x4096x1024.size a
  hwx0_2 : ∀ i : grid0.Coords, EltTy.bits .f32 = 32 ∨ (Rect.block (s := S4x4096x1024) S1x512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S4x4096x1024.size a
  hwx0_3 : ∀ i : grid0.Coords, EltTy.bits .f32 = 32 ∨ (Rect.block (s := S4x4096x1024) S1x256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x512.size a ≤ S4x4096x4096.size a
  hwx0_4 : ∀ i : grid0.Coords, EltTy.bits .f32 = 32 ∨ (Rect.block (s := S4x4096x4096) S1x256x512.size (cc0_transform_4 i) (hinb0_4 i)).WholeWords (EltTy.packing .f32)

variable [Facts₀]

def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf
def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x256x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x256x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S_ : Shape := ⟨0, ![]⟩
abbrev S4x4096 : Shape := ⟨2, ![4, 4096]⟩
abbrev S4x4096x1 : Shape := ⟨3, ![4, 4096, 1]⟩
abbrev S4x4096x4096 : Shape := ⟨3, ![4, 4096, 4096]⟩

abbrev nBuf : Space → Nat
  | .hbm => 25
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x1024, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S4x4096x1024, .f32⟩
  | .hbm, ⟨12, _⟩ => ⟨S4x4096x1024, .f32⟩
  | .hbm, ⟨13, _⟩ => ⟨S4x4096x1024, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S4x4096x1024, .f32⟩
  | .hbm, ⟨22, _⟩ => ⟨S4x4096x1024, .f32⟩
  | .hbm, ⟨23, _⟩ => ⟨S4x4096x4096, .f32⟩
  | .hbm, ⟨24, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S4x4096x1024_S4x4096_d2 : S4x4096x1024.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x1024_0_1_2 : S4x4096x1.BroadcastsInDim S4x4096x1024 (![0, 1, 2] : Fin 3 → Fin S4x4096x1024.rank)
  dot_S4x4096x1024_S4x4096x1024_S4x4096x4096_2_2_1_1_0_0_wf : DotDims.WF S4x4096x1024 S4x4096x1024 S4x4096x4096 [2] [2] [1] [1] [0] [0]
  dot_S4x4096x4096_S4x4096x1024_S4x4096x1024_2_1_1_2_0_0_wf : DotDims.WF S4x4096x4096 S4x4096x1024 S4x4096x1024 [2] [1] [1] [2] [0] [0]

variable [Facts₀]

def dot_S4x4096x1024_S4x4096x1024_S4x4096x4096_2_2_1_1_0_0 : DotDims S4x4096x1024 S4x4096x1024 S4x4096x4096 where
  lhsContracting := [2]
  rhsContracting := [2]
  lhsNonContracting := [1]
  rhsNonContracting := [1]
  lhsBatch := [0]
  rhsBatch := [0]
  wf := dot_S4x4096x1024_S4x4096x1024_S4x4096x4096_2_2_1_1_0_0_wf
def dot_S4x4096x4096_S4x4096x1024_S4x4096x1024_2_1_1_2_0_0 : DotDims S4x4096x4096 S4x4096x1024 S4x4096x1024 where
  lhsContracting := [2]
  rhsContracting := [1]
  lhsNonContracting := [1]
  rhsNonContracting := [2]
  lhsBatch := [0]
  rhsBatch := [0]
  wf := dot_S4x4096x4096_S4x4096x1024_S4x4096x1024_2_1_1_2_0_0_wf

class Facts : Prop extends Facts₀ where

variable [Facts]
-- ==== Proof.Spec.lean ====
/-
  The mathematics of the attention block without softmax, over the extended reals.

  Every row of q and of k is divided by the larger of its Euclidean norm and a small positive constant; the
  weight of query row n against key row m (in one batch) is the inner product of the two scaled rows; the
  output row n is the weights of row n applied to the rows of v. A sum over all 4096 key rows is the sum, over
  the eight consecutive groups of 512 key rows, of the groups' partial sums: only commutativity and
  associativity of addition are used, which hold on the extended reals without any finiteness.
-/
import Idealize.ShloMosaic.Lib.ValueIdx
import Idealize.ShloMosaic.PureOps.Ideal
import Mathlib.Algebra.BigOperators.Fin

noncomputable section

namespace Cert.Attn

open Idealize.ShloMosaic Idealize.ShloMosaic.ValueIdx

/-- The shape of q, k, v and of the output: batch, row, feature. -/
abbrev Sx : Shape := ⟨3, ![4, 4096, 1024]⟩
/-- The shape of the weights: batch, query row, key row. -/
abbrev Sw : Shape := ⟨3, ![4, 4096, 4096]⟩

/-- The floor under a row's norm. -/
def floorNorm : EReal := Ideal.ofBits .f32 0x2B8CBCCC#32

/-- What row (b, n) of x is divided by: its Euclidean norm, or the floor if that is larger. -/
def divisor (x : Sx.Idx → EReal) (b : Fin 4) (n : Fin 4096) : EReal :=
  max (Ideal.sqrt (∑ e : Fin 1024, x (ix3 b n e) * x (ix3 b n e))) floorNorm

/-- The scaled row's entry d. -/
def scaled (x : Sx.Idx → EReal) (b : Fin 4) (n : Fin 4096) (d : Fin 1024) : EReal :=
  Ideal.div (x (ix3 b n d)) (divisor x b n)

/-- The weight of query row n against key row m in batch b. -/
def weight (q k : Sx.Idx → EReal) (b : Fin 4) (n m : Fin 4096) : EReal :=
  ∑ d : Fin 1024, scaled q b n d * scaled k b m d

/-- All the weights, as an array. -/
def weights (q k : Sx.Idx → EReal) : Sw.Idx → EReal := fun i => weight q k (i 0) (i 1) (i 2)

/-- Output entry (b, n, d): the weights of row n applied to column d of v. -/
def output (q k v : Sx.Idx → EReal) (b : Fin 4) (n : Fin 4096) (d : Fin 1024) : EReal :=
  ∑ m : Fin 4096, weight q k b n m * v (ix3 b m d)

/-- All the outputs, as an array. -/
def outputs (q k v : Sx.Idx → EReal) : Sx.Idx → EReal := fun i => output q k v (i 0) (i 1) (i 2)

/-- A natural number as a batch index (reduced mod 4; used only below 4). -/
def batchOf (b : ℕ) : Fin 4 := ⟨b % 4, Nat.mod_lt _ (by decide)⟩
/-- A natural number as a row index (reduced mod 4096; used only below 4096). -/
def rowOf (n : ℕ) : Fin 4096 := ⟨n % 4096, Nat.mod_lt _ (by decide)⟩

theorem rowOf_val (m : Fin 4096) : rowOf m.val = m := Fin.ext (Nat.mod_eq_of_lt m.isLt)

/-- The contribution of the s-th group of 512 key rows to output entry (b, n, d). -/
def tile (q k v : Sx.Idx → EReal) (b : Fin 4) (n : Fin 4096) (d : Fin 1024) (s : ℕ) : EReal :=
  ∑ r : Fin 512, weight q k b n (rowOf (512 * s + r.val)) * v (ix3 b (rowOf (512 * s + r.val)) d)

/-- A sum over the first a·b naturals is the sum over a consecutive groups of b. -/
theorem sum_range_groups {M : Type*} [AddCommMonoid M] (f : ℕ → M) (b : ℕ) :
    ∀ a : ℕ, ∑ m ∈ Finset.range (a * b), f m = ∑ s ∈ Finset.range a, ∑ r ∈ Finset.range b, f (b * s + r)
  | 0 => by simp
  | a + 1 => by
    rw [Nat.succ_mul, Finset.sum_range_add, Finset.sum_range_succ, sum_range_groups f b a, Nat.mul_comm a b]

/-- An output entry is the sum of its eight groups' contributions. -/
theorem output_eq_tiles (q k v : Sx.Idx → EReal) (b : Fin 4) (n : Fin 4096) (d : Fin 1024) :
    output q k v b n d = ∑ s ∈ Finset.range 8, tile q k v b n d s := by
  unfold output tile
  have h1 : ∑ m : Fin 4096, weight q k b n m * v (ix3 b m d)
      = ∑ m : Fin 4096, weight q k b n (rowOf m.val) * v (ix3 b (rowOf m.val) d) :=
    Finset.sum_congr rfl fun m _ => by rw [rowOf_val]
  rw [h1, Fin.sum_univ_eq_sum_range (fun m => weight q k b n (rowOf m) * v (ix3 b (rowOf m) d)) 4096]
  refine (sum_range_groups (fun m => weight q k b n (rowOf m) * v (ix3 b (rowOf m) d)) 512 8).trans ?_
  refine Finset.sum_congr rfl fun s _ => ?_
  exact (Fin.sum_univ_eq_sum_range (fun r => weight q k b n (rowOf (512 * s + r)) * v (ix3 b (rowOf (512 * s + r)) d)) 512).symm

end Cert.Attn

end
-- ==== Proof.RefValue.lean ====
/-
  The reference computes the specification.

  Read one operation at a time, the reference's two results are: each row of q and k divided by the larger of
  its norm and the floor (a sum of squares along the features, a square root, a maximum, a division), the inner
  products of the scaled rows, and those weights applied to v. That is the specification's `weights` and
  `outputs`, entry by entry: the host's sum from a zero initial value is the plain sum, and each operation on the
  extended reals is the one the specification names.
-/
import proofs.«108234_j69080253989708_1_alg».proof.Proof.Gen.ReferenceIdeal.Read
import proofs.«108234_j69080253989708_1_alg».proof.Proof.Spec

noncomputable section

namespace Cert.Attn.Ref

open Idealize.ShloMosaic Idealize.ShloMosaic.ValueIdx Cert.ReferenceIdeal Cert.ReferenceIdeal.Read Cert.Attn

/-- The reference's scaled q at (b, n, d). -/
theorem scaled_q (x : Sx.Idx → EReal) (b : Fin 4) (n : Fin 4096) (d : Fin 1024) :
    val_main_v7 (F := Ideal) x (ix3 b n d) = scaled x b n d := by
  have hidx : ∀ e : Fin 1024, idx_main_v1 (idx_main_v2 (idx_main_v6 (ix3 b n d))) e = ix3 b n e := fun e =>
    funext fun a => Fin.ext (by match a with | ⟨0, _⟩ => rfl | ⟨1, _⟩ => rfl | ⟨2, _⟩ => rfl)
  rw [val_main_v7_apply, val_main_v6_apply, val_main_v5_apply, val_main_v3_apply, val_main_v2_apply,
    val_main_v1_apply, val_main_v4_apply, val_main_cst_0_apply, val_main_cst_apply]
  simp only [val_main_v0_apply, hidx, Ideal.hostDivf_def, Ideal.maximumf_def, Ideal.hostUnary_sqrt_def,
    Ideal.mulf_def, Ideal.ofBits_def, Ideal.ofBits_zero_f32, zero_add]
  rfl

/-- The reference's scaled k at (b, m, d). -/
theorem scaled_k (x : Sx.Idx → EReal) (b : Fin 4) (n : Fin 4096) (d : Fin 1024) :
    val_main_v15 (F := Ideal) x (ix3 b n d) = scaled x b n d := by
  have hidx : ∀ e : Fin 1024, idx_main_v9 (idx_main_v10 (idx_main_v14 (ix3 b n d))) e = ix3 b n e := fun e =>
    funext fun a => Fin.ext (by match a with | ⟨0, _⟩ => rfl | ⟨1, _⟩ => rfl | ⟨2, _⟩ => rfl)
  rw [val_main_v15_apply, val_main_v14_apply, val_main_v13_apply, val_main_v11_apply, val_main_v10_apply,
    val_main_v9_apply, val_main_v12_apply, val_main_cst_2_apply, val_main_cst_1_apply]
  simp only [val_main_v8_apply, hidx, Ideal.hostDivf_def, Ideal.maximumf_def, Ideal.hostUnary_sqrt_def,
    Ideal.mulf_def, Ideal.ofBits_def, Ideal.ofBits_zero_f32, zero_add]
  rfl

/-- The reference's first matrix product is the array of weights. -/
theorem weights_eq (q k : Sx.Idx → EReal) : val_main_v16 (F := Ideal) q k = weights q k := by
  funext i
  obtain ⟨b, n, m, rfl⟩ : ∃ (b : Fin 4) (n m : Fin 4096), i = ix3 b n m := ⟨i 0, i 1, i 2, eq_ix3 i⟩
  have hl : ∀ e : Fin 1024, lidx_main_v16 (ix3 b n m) e = ix3 b n e := fun e =>
    funext fun a => Fin.ext (by match a with | ⟨0, _⟩ => rfl | ⟨1, _⟩ => rfl | ⟨2, _⟩ => rfl)
  have hr : ∀ e : Fin 1024, ridx_main_v16 (ix3 b n m) e = ix3 b m e := fun e =>
    funext fun a => Fin.ext (by match a with | ⟨0, _⟩ => rfl | ⟨1, _⟩ => rfl | ⟨2, _⟩ => rfl)
  rw [val_main_v16_apply]
  simp only [hl, hr, scaled_q, scaled_k]
  rfl

/-- The reference's second matrix product is the array of outputs. -/
theorem outputs_eq (q k v : Sx.Idx → EReal) : val_main_v17 (F := Ideal) q k v = outputs q k v := by
  funext i
  obtain ⟨b, n, d, rfl⟩ : ∃ (b : Fin 4) (n : Fin 4096) (d : Fin 1024), i = ix3 b n d := ⟨i 0, i 1, i 2, eq_ix3 i⟩
  have hl : ∀ e : Fin 4096, lidx_main_v17 (ix3 b n d) e = ix3 b n e := fun e =>
    funext fun a => Fin.ext (by match a with | ⟨0, _⟩ => rfl | ⟨1, _⟩ => rfl | ⟨2, _⟩ => rfl)
  have hr : ∀ e : Fin 4096, ridx_main_v17 (ix3 b n d) e = ix3 b e d := fun e =>
    funext fun a => Fin.ext (by match a with | ⟨0, _⟩ => rfl | ⟨1, _⟩ => rfl | ⟨2, _⟩ => rfl)
  rw [val_main_v17_apply]
  simp only [hl, hr, weights_eq]
  rfl

end Cert.Attn.Ref

end
-- ==== Proof.Pieces.lean ====
/-
  What one run of the body leaves in the two output blocks, as values.

  The tile block is one store of the tile of weights computed from the q and k blocks, in either case of the
  body. The output block: at the first of a query block's eight key groups the body stores zero, reads it back
  and stores zero plus the tile applied to the v block; at the other seven it reads what the previous group left
  and stores that plus the tile applied to the v block. Each store covers its whole block, so the block after the
  run is the last store's value.
-/
import proofs.«108234_j69080253989708_1_alg».proof.Proof.Gen.KernelIdeal.Frame
import Idealize.ShloMosaic.Lib.Pipeline.Value
import Idealize.ShloMosaic.Lib.Tactic

noncomputable section

namespace Cert.Attn.Pieces

open Idealize.ShloMosaic Idealize.ShloMosaic.TcCoe Idealize.SL.Sem Cert.KernelIdeal Cert.KernelIdeal.Gen

variable {F : FTy → Type} [FloatOps F]

theorem offsets_zero : (![0, 0, 0] : Fin 3 → Nat) = fun _ => 0 := funext fun a => by fin_cases a <;> rfl

/-- After a later group's run the output block holds what it held plus the tile applied to the v block. -/
theorem later_output (c : Dev nD) (i : grid0.Coords) (a3 : Memref sig .tc .vmem S1x256x1024 .f32) (h3 : a3.IsWhole) (a4 : Memref sig .tc .vmem S1x512x1024 .f32) (h4 : a4.IsWhole) (a5 : Memref sig .tc .vmem S1x512x1024 .f32) (h5 : a5.IsWhole) (a6 : Memref sig .tc .vmem S1x256x1024 .f32) (h6 : a6.IsWhole) (a7 : Memref sig .tc .vmem S1x256x512 .f32) (h7 : a7.IsWhole) (hc : ¬cond0_0 i)
    (x0 : Vec F S1x256x1024 .f32) (x1 : Vec F S1x512x1024 .f32) (x2 : Vec F S1x512x1024 .f32) (xo : Vec F S1x256x1024 .f32) :
    out0_B_3 c i a3 h3 a4 h4 a5 h5 a6 h6 a7 h7 hc x0 x1 x2 xo = k0_pay1 (k0_pay5 x0 x1) (k0_pay6 x2) xo := by
  unfold out0_B_3
  rw [View.read_writes_eq_canon _ _ _ (cover0_B_3 c i a3 h3 a4 h4 a5 h5 a6 h6 a7 h7 hc x0 x1 x2 xo)]
  unfold kernelRun0_B
  dsimp only
  sl_unfold_words
  rw [View.canon_unit_zero offsets_zero]
  simp only [View.readAt_eq_ld, h3.read_unread, h4.read_unread, h5.read_unread, h6.read_unread,
    View.ld_unit_zero (S := S1x256x1024) offsets_zero, View.ld_unit_zero (S := S1x512x1024) offsets_zero]

/-- After a later group's run the tile block holds the tile. -/
theorem later_tile (c : Dev nD) (i : grid0.Coords) (a3 : Memref sig .tc .vmem S1x256x1024 .f32) (h3 : a3.IsWhole) (a4 : Memref sig .tc .vmem S1x512x1024 .f32) (h4 : a4.IsWhole) (a5 : Memref sig .tc .vmem S1x512x1024 .f32) (h5 : a5.IsWhole) (a6 : Memref sig .tc .vmem S1x256x1024 .f32) (h6 : a6.IsWhole) (a7 : Memref sig .tc .vmem S1x256x512 .f32) (h7 : a7.IsWhole) (hc : ¬cond0_0 i)
    (x0 : Vec F S1x256x1024 .f32) (x1 : Vec F S1x512x1024 .f32) (x2 : Vec F S1x512x1024 .f32) (xo : Vec F S1x256x1024 .f32) :
    out0_B_4 c i a3 h3 a4 h4 a5 h5 a6 h6 a7 h7 hc x0 x1 x2 xo = k0_pay3 x0 x1 := by
  unfold out0_B_4
  rw [View.read_writes_eq_canon _ _ _ (cover0_B_4 c i a3 h3 a4 h4 a5 h5 a6 h6 a7 h7 hc x0 x1 x2 xo)]
  unfold kernelRun0_B
  dsimp only
  sl_unfold_words
  rw [View.canon_unit_zero offsets_zero]
  simp only [View.readAt_eq_ld, h3.read_unread, h4.read_unread, h5.read_unread, h6.read_unread,
    View.ld_unit_zero (S := S1x256x1024) offsets_zero, View.ld_unit_zero (S := S1x512x1024) offsets_zero]

/-- After the first group's run the output block holds zero plus the tile applied to the v block. -/
theorem first_output (c : Dev nD) (i : grid0.Coords) (a3 : Memref sig .tc .vmem S1x256x1024 .f32) (h3 : a3.IsWhole) (a4 : Memref sig .tc .vmem S1x512x1024 .f32) (h4 : a4.IsWhole) (a5 : Memref sig .tc .vmem S1x512x1024 .f32) (h5 : a5.IsWhole) (a6 : Memref sig .tc .vmem S1x256x1024 .f32) (h6 : a6.IsWhole) (a7 : Memref sig .tc .vmem S1x256x512 .f32) (h7 : a7.IsWhole) (hc : cond0_0 i)
    (x0 : Vec F S1x256x1024 .f32) (x1 : Vec F S1x512x1024 .f32) (x2 : Vec F S1x512x1024 .f32) :
    out0_A_3 c i a3 h3 a4 h4 a5 h5 a6 h6 a7 h7 hc x0 x1 x2 = k0_pay1 (k0_pay5 x0 x1) (k0_pay6 x2) k0_pay4 := by
  unfold out0_A_3
  rw [View.read_writes_eq_canon _ _ _ (cover0_A_3 c i a3 h3 a4 h4 a5 h5 a6 h6 a7 h7 hc x0 x1 x2)]
  unfold kernelRun0_A
  dsimp only
  sl_unfold_words
  rw [View.canon_cons_unit_zero (S := S1x256x1024) offsets_zero, View.readCov_unit_zero (S := S1x256x1024) _ offsets_zero]
  simp only [View.readAt_eq_ld, h3.read_unread, h4.read_unread, h5.read_unread, h6.read_unread,
    View.ld_unit_zero (S := S1x256x1024) offsets_zero, View.ld_unit_zero (S := S1x512x1024) offsets_zero]

/-- After the first group's run the tile block holds the tile. -/
theorem first_tile (c : Dev nD) (i : grid0.Coords) (a3 : Memref sig .tc .vmem S1x256x1024 .f32) (h3 : a3.IsWhole) (a4 : Memref sig .tc .vmem S1x512x1024 .f32) (h4 : a4.IsWhole) (a5 : Memref sig .tc .vmem S1x512x1024 .f32) (h5 : a5.IsWhole) (a6 : Memref sig .tc .vmem S1x256x1024 .f32) (h6 : a6.IsWhole) (a7 : Memref sig .tc .vmem S1x256x512 .f32) (h7 : a7.IsWhole) (hc : cond0_0 i)
    (x0 : Vec F S1x256x1024 .f32) (x1 : Vec F S1x512x1024 .f32) (x2 : Vec F S1x512x1024 .f32) :
    out0_A_4 c i a3 h3 a4 h4 a5 h5 a6 h6 a7 h7 hc x0 x1 x2 = k0_pay3 x0 x1 := by
  unfold out0_A_4
  rw [View.read_writes_eq_canon _ _ _ (cover0_A_4 c i a3 h3 a4 h4 a5 h5 a6 h6 a7 h7 hc x0 x1 x2)]
  unfold kernelRun0_A
  dsimp only
  sl_unfold_words
  rw [View.canon_unit_zero offsets_zero]
  simp only [View.readAt_eq_ld, h3.read_unread, h4.read_unread, h5.read_unread, h6.read_unread,
    View.ld_unit_zero (S := S1x256x1024) offsets_zero, View.ld_unit_zero (S := S1x512x1024) offsets_zero]

end Cert.Attn.Pieces

end
-- ==== Proof.LibKeepdims.lean ====
/-
  Keepdims forms read at an index, and a lane sum as a plain sum.

  A row-wise reduction with `keepdims=True` leaves a vector [a] that is cast to a column [a, 1] and then broadcast
  across the columns to [a, b]; or, for the other operand of an outer sum, cast to a column [b, 1], transposed to a
  row [1, b] and broadcast down the rows to [a, b]. Read at (p, q) the first is the vector at p and the second the
  vector at q. A `[1, b]` block cast to itself and broadcast down the rows reads its one row at q. And at the
  ideal values a sum along the lanes of an [a, b] array, read at row p, is the plain sum over the row.
  All for any extents.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibKeepdims

open Idealize.ShloMosaic Idealize.ShloMosaic.ValueIdx

variable {α : Type}

/-- A vector [a] as a column [a, 1] broadcast across the columns of [a, b]: at (p, q), the vector at p. -/
theorem column_broadcast_apply {a b : ℕ} (v : (⟨1, ![a]⟩ : Shape).Idx → α)
    (h₁ : (⟨1, ![a]⟩ : Shape).ShapeCasts ⟨2, ![a, 1]⟩) (h₂ : (⟨2, ![a, 1]⟩ : Shape).Broadcasts ⟨2, ![a, b]⟩)
    (p : Fin a) (q : Fin b) :
    broadcastTo ⟨2, ![a, b]⟩ (shapeCast ⟨2, ![a, 1]⟩ v h₁) h₂ (ix2 p q) = v (ix1 p) := by
  refine (broadcastTo_apply _ h₂ (ix2 p q) (ix2 p (0 : Fin 1)) fun ax => ?_).trans
    (shapeCast_apply v h₁ _ _ ?_)
  · match ax with
    | ⟨0, _⟩ =>
      show p.val = if a = 1 then 0 else p.val
      split
      · have := p.isLt; omega
      · rfl
    | ⟨1, _⟩ => rfl
  · rw [Shape.rowMajor_val_one, Shape.rowMajor_val_two]
    show p.val = p.val * 1 + 0
    omega

/-- A vector [b] as a column [b, 1], transposed to a row [1, b] and broadcast down the rows of [a, b]: at (p, q),
    the vector at q. -/
theorem row_of_column_broadcast_apply {a b : ℕ} (v : (⟨1, ![b]⟩ : Shape).Idx → α)
    (h₁ : (⟨1, ![b]⟩ : Shape).ShapeCasts ⟨2, ![b, 1]⟩) (h₃ : (⟨2, ![b, 1]⟩ : Shape).Transposes [1, 0] ⟨2, ![1, b]⟩)
    (h₂ : (⟨2, ![1, b]⟩ : Shape).Broadcasts ⟨2, ![a, b]⟩) (p : Fin a) (q : Fin b) :
    broadcastTo ⟨2, ![a, b]⟩ (transpose ⟨2, ![1, b]⟩ [1, 0] (shapeCast ⟨2, ![b, 1]⟩ v h₁) h₃) h₂ (ix2 p q) = v (ix1 q) := by
  refine (broadcastTo_1b_ab_apply _ h₂ p q).trans ((transpose_ix2_apply _ h₃ (0 : Fin 1) q).trans
    (shapeCast_apply v h₁ _ _ ?_))
  rw [Shape.rowMajor_val_one, Shape.rowMajor_val_two]
  show q.val = q.val * 1 + 0
  omega

/-- A [1, b] block cast to its own shape and broadcast down the rows of [a, b]: at (p, q), its one row at q. -/
theorem row_broadcast_apply {a b : ℕ} (v : (⟨2, ![1, b]⟩ : Shape).Idx → α)
    (h₁ : (⟨2, ![1, b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ v h₁) h₂ (ix2 p q) = v (ix2 (0 : Fin 1) q) :=
  (broadcastTo_1b_ab_apply _ h₂ p q).trans (congrFun (shapeCast_self v h₁) _)

/-- At the ideal values the sum along the lanes of an [a, b] array from the zero pattern, read at row p, is the
    sum of the row. -/
theorem lane_sum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec (FTy.bits .f32)) = FKind.add.neutral .f32 hφ) (p : Fin a) :
    multiReduction (F := Ideal) .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src
      (funext fun ax => Fin.ext (by match ax with | ⟨0, _⟩ => rfl | ⟨1, _⟩ => rfl)))

end Cert.LibKeepdims

end
-- ==== Proof.LibColumn.lean ====
/-
  A column [a, 1] read at an index, for any extents: a vector [a] cast to a column reads the vector's entry,
  and a column broadcast across b columns reads the column's entry of the same row. Together they read a
  keepdims reduction that has been through pointwise operations before it is broadcast.
-/
import Idealize.ShloMosaic.Lib.ValueIdx
import Idealize.ShloMosaic.Lib.Pipeline.Value

noncomputable section

namespace Cert.LibColumn

open Idealize.ShloMosaic Idealize.ShloMosaic.ValueIdx

variable {α : Type}

/-- A vector [a] cast to a column [a, 1]: at (p, 0), the vector at p. -/
theorem column_cast_apply {a : ℕ} (v : (⟨1, ![a]⟩ : Shape).Idx → α)
    (h₁ : (⟨1, ![a]⟩ : Shape).ShapeCasts ⟨2, ![a, 1]⟩) (p : Fin a) :
    shapeCast ⟨2, ![a, 1]⟩ v h₁ (ix2 p (0 : Fin 1)) = v (ix1 p) := by
  refine shapeCast_apply v h₁ _ _ ?_
  rw [Shape.rowMajor_val_one, Shape.rowMajor_val_two]
  show p.val = p.val * 1 + 0
  omega

/-- A column [a, 1] broadcast across the columns of [a, b]: at (p, q), the column at (p, 0). -/
theorem column_spread_apply {a b : ℕ} (w : (⟨2, ![a, 1]⟩ : Shape).Idx → α)
    (h₂ : (⟨2, ![a, 1]⟩ : Shape).Broadcasts ⟨2, ![a, b]⟩) (p : Fin a) (q : Fin b) :
    broadcastTo ⟨2, ![a, b]⟩ w h₂ (ix2 p q) = w (ix2 p (0 : Fin 1)) := by
  refine broadcastTo_apply _ h₂ (ix2 p q) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.Payload.lean ====
/-
  The kernel body's arithmetic at an index, over the extended reals.

  At one grid point the body holds a block of 256 rows of q, a block of 512 rows of k and the same 512 rows of v.
  It divides every row of the q and k blocks by the larger of its norm and the floor, multiplies the scaled q block
  by the transposed scaled k block (a 256 by 512 tile of weights), stores that tile, and adds the tile times the v
  block to the output block (which it first sets to zero at the first of the eight key groups). The changes of
  float format in between are the identity on the extended reals.
-/
import proofs.«108234_j69080253989708_1_alg».proof.Proof.Gen.KernelIdeal.Skeleton
import proofs.«108234_j69080253989708_1_alg».proof.Proof.LibKeepdims
import proofs.«108234_j69080253989708_1_alg».proof.Proof.LibColumn
import proofs.«108234_j69080253989708_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Attn.Body

open Idealize.ShloMosaic Idealize.ShloMosaic.ValueIdx Cert.KernelIdeal Cert.KernelIdeal.Gen Cert.Attn

/-- Row p of a block of a rows, entry d, divided by the larger of the row's norm and the floor. -/
def blockScaled {a : ℕ} (x : (⟨3, ![1, a, 1024]⟩ : Shape).Idx → EReal) (p : Fin a) (d : Fin 1024) : EReal :=
  Ideal.div (x (ix3 (0 : Fin 1) p d))
    (max (Ideal.sqrt (∑ e : Fin 1024, x (ix3 (0 : Fin 1) p e) * x (ix3 (0 : Fin 1) p e))) floorNorm)

/-- The body's scaling of a block, read at (p, d). -/
theorem scale_apply {a : ℕ} (x : FVec Ideal ⟨3, ![1, a, 1024]⟩ .f32)
    (hc : (⟨3, ![1, a, 1024]⟩ : Shape).ShapeCasts ⟨2, ![a, 1024]⟩)
    (hr : (⟨2, ![a, 1024]⟩ : Shape).Reduces [1] ⟨1, ![a]⟩) (hφ : FKind.Formats .f32)
    (hacc : (0x00000000#32 : BitVec (FTy.bits .f32)) = FKind.add.neutral .f32 hφ)
    (h₁ : (⟨1, ![a]⟩ : Shape).ShapeCasts ⟨2, ![a, 1]⟩) (h₂ : (⟨2, ![a, 1]⟩ : Shape).Broadcasts ⟨2, ![a, 1024]⟩)
    (p : Fin a) (d : Fin 1024) :
    divf (F := Ideal) (shapeCast ⟨2, ![a, 1024]⟩ x hc)
      (broadcastTo ⟨2, ![a, 1024]⟩
        (maximumf (sqrt (shapeCast ⟨2, ![a, 1]⟩
          (multiReduction (F := Ideal) .add [1] ⟨1, ![a]⟩ (mulf (shapeCast ⟨2, ![a, 1024]⟩ x hc) (shapeCast ⟨2, ![a, 1024]⟩ x hc))
            0x00000000#32 hr hφ hacc) h₁))
          (broadcast ⟨2, ![a, 1]⟩ (Scalar.ofBits (F := Ideal) .f32 0x2B8CBCCC#32))) h₂) (ix2 p d)
      = blockScaled x p d := by
  have hx : ∀ e : Fin 1024, shapeCast ⟨2, ![a, 1024]⟩ x hc (ix2 p e) = x (ix3 (0 : Fin 1) p e) := fun e =>
    shapeCast_1ab_ab_apply x hc p e
  rw [divf_apply, Cert.LibColumn.column_spread_apply, maximumf_apply, hx]
  show Ideal.div _ (max (Ideal.sqrt (shapeCast ⟨2, ![a, 1]⟩ _ h₁ (ix2 p (0 : Fin 1)))) _) = _
  rw [Cert.LibColumn.column_cast_apply, Cert.LibKeepdims.lane_sum_apply]
  simp only [mulf_apply, hx]
  rfl

/-! ## The two matrix products of the body, at an index -/

theorem lhs_first_0 (i : S256x512.Idx) (q : dot_S256x1024_S1024x512_S256x512_1_0_0_1_n_n.contr.Idx) :
    (dot_S256x1024_S1024x512_S256x512_1_0_0_1_n_n.lhsIdx i q 0).val = (i 0).val := by
  unfold DotDims.lhsIdx
  rw [dif_neg (show ¬(0 : Fin S256x1024.rank) ∈ dot_S256x1024_S1024x512_S256x512_1_0_0_1_n_n.lhsBatch by decide), dif_pos (show (0 : Fin S256x1024.rank) ∈ dot_S256x1024_S1024x512_S256x512_1_0_0_1_n_n.lhsNonContracting by decide)]
  rfl
theorem lhs_first_1 (i : S256x512.Idx) (q : dot_S256x1024_S1024x512_S256x512_1_0_0_1_n_n.contr.Idx) :
    (dot_S256x1024_S1024x512_S256x512_1_0_0_1_n_n.lhsIdx i q 1).val = (q ⟨0, by decide⟩).val :=
  dot_S256x1024_S1024x512_S256x512_1_0_0_1_n_n.lhsIdx_val_of_single rfl i q
theorem rhs_first_0 (i : S256x512.Idx) (q : dot_S256x1024_S1024x512_S256x512_1_0_0_1_n_n.contr.Idx) :
    (dot_S256x1024_S1024x512_S256x512_1_0_0_1_n_n.rhsIdx i q 0).val = (q ⟨0, by decide⟩).val :=
  dot_S256x1024_S1024x512_S256x512_1_0_0_1_n_n.rhsIdx_val_of_single rfl i q
theorem rhs_first_1 (i : S256x512.Idx) (q : dot_S256x1024_S1024x512_S256x512_1_0_0_1_n_n.contr.Idx) :
    (dot_S256x1024_S1024x512_S256x512_1_0_0_1_n_n.rhsIdx i q 1).val = (i 1).val := by
  unfold DotDims.rhsIdx
  rw [dif_neg (show ¬(1 : Fin S1024x512.rank) ∈ dot_S256x1024_S1024x512_S256x512_1_0_0_1_n_n.rhsBatch by decide), dif_pos (show (1 : Fin S1024x512.rank) ∈ dot_S256x1024_S1024x512_S256x512_1_0_0_1_n_n.rhsNonContracting by decide)]
  rfl

/-- The first product (256 by 1024 times 1024 by 512, into zero) at (p, r): the sum over the 1024 features. -/
theorem first_product_apply (L : FVec Ideal S256x1024 .bf16) (R : FVec Ideal S1024x512 .bf16) (p : Fin 256) (r : Fin 512) :
    matmul dot_S256x1024_S1024x512_S256x512_1_0_0_1_n_n none L R (constant S256x512 .f32 0x00000000#32) (ix2 p r)
      = ∑ d : Fin 1024, L (ix2 p d) * R (ix2 d r) := by
  simp only [matmul]
  rw [Ideal.matmul_constant_zero_apply, ← Equiv.sum_comp (contrEquiv1 dot_S256x1024_S1024x512_S256x512_1_0_0_1_n_n 1024 rfl rfl).symm]
  refine Finset.sum_congr rfl fun d _ => ?_
  have hk := contrEquiv1_symm_val dot_S256x1024_S1024x512_S256x512_1_0_0_1_n_n 1024 rfl rfl d
  have el : dot_S256x1024_S1024x512_S256x512_1_0_0_1_n_n.lhsIdx (ix2 p r) ((contrEquiv1 dot_S256x1024_S1024x512_S256x512_1_0_0_1_n_n 1024 rfl rfl).symm d) = ix2 p d := funext fun a => Fin.ext (by
    match a with
    | ⟨0, _⟩ => exact lhs_first_0 _ _
    | ⟨1, _⟩ => exact (lhs_first_1 _ _).trans hk)
  have er : dot_S256x1024_S1024x512_S256x512_1_0_0_1_n_n.rhsIdx (ix2 p r) ((contrEquiv1 dot_S256x1024_S1024x512_S256x512_1_0_0_1_n_n 1024 rfl rfl).symm d) = ix2 d r := funext fun a => Fin.ext (by
    match a with
    | ⟨0, _⟩ => exact (rhs_first_0 _ _).trans hk
    | ⟨1, _⟩ => exact rhs_first_1 _ _)
  rw [el, er]

theorem lhs_second_0 (i : S256x1024.Idx) (q : dot_S256x512_S512x1024_S256x1024_1_0_0_1_n_n.contr.Idx) :
    (dot_S256x512_S512x1024_S256x1024_1_0_0_1_n_n.lhsIdx i q 0).val = (i 0).val := by
  unfold DotDims.lhsIdx
  rw [dif_neg (show ¬(0 : Fin S256x512.rank) ∈ dot_S256x512_S512x1024_S256x1024_1_0_0_1_n_n.lhsBatch by decide), dif_pos (show (0 : Fin S256x512.rank) ∈ dot_S256x512_S512x1024_S256x1024_1_0_0_1_n_n.lhsNonContracting by decide)]
  rfl
theorem lhs_second_1 (i : S256x1024.Idx) (q : dot_S256x512_S512x1024_S256x1024_1_0_0_1_n_n.contr.Idx) :
    (dot_S256x512_S512x1024_S256x1024_1_0_0_1_n_n.lhsIdx i q 1).val = (q ⟨0, by decide⟩).val :=
  dot_S256x512_S512x1024_S256x1024_1_0_0_1_n_n.lhsIdx_val_of_single rfl i q
theorem rhs_second_0 (i : S256x1024.Idx) (q : dot_S256x512_S512x1024_S256x1024_1_0_0_1_n_n.contr.Idx) :
    (dot_S256x512_S512x1024_S256x1024_1_0_0_1_n_n.rhsIdx i q 0).val = (q ⟨0, by decide⟩).val :=
  dot_S256x512_S512x1024_S256x1024_1_0_0_1_n_n.rhsIdx_val_of_single rfl i q
theorem rhs_second_1 (i : S256x1024.Idx) (q : dot_S256x512_S512x1024_S256x1024_1_0_0_1_n_n.contr.Idx) :
    (dot_S256x512_S512x1024_S256x1024_1_0_0_1_n_n.rhsIdx i q 1).val = (i 1).val := by
  unfold DotDims.rhsIdx
  rw [dif_neg (show ¬(1 : Fin S512x1024.rank) ∈ dot_S256x512_S512x1024_S256x1024_1_0_0_1_n_n.rhsBatch by decide), dif_pos (show (1 : Fin S512x1024.rank) ∈ dot_S256x512_S512x1024_S256x1024_1_0_0_1_n_n.rhsNonContracting by decide)]
  rfl

/-- The second product (256 by 512 times 512 by 1024, into zero) at (p, d): the sum over the 512 key rows. -/
theorem second_product_apply (L : FVec Ideal S256x512 .bf16) (R : FVec Ideal S512x1024 .bf16) (p : Fin 256) (d : Fin 1024) :
    matmul dot_S256x512_S512x1024_S256x1024_1_0_0_1_n_n none L R (constant S256x1024 .f32 0x00000000#32) (ix2 p d)
      = ∑ r : Fin 512, L (ix2 p r) * R (ix2 r d) := by
  simp only [matmul]
  rw [Ideal.matmul_constant_zero_apply, ← Equiv.sum_comp (contrEquiv1 dot_S256x512_S512x1024_S256x1024_1_0_0_1_n_n 512 rfl rfl).symm]
  refine Finset.sum_congr rfl fun r _ => ?_
  have hk := contrEquiv1_symm_val dot_S256x512_S512x1024_S256x1024_1_0_0_1_n_n 512 rfl rfl r
  have el : dot_S256x512_S512x1024_S256x1024_1_0_0_1_n_n.lhsIdx (ix2 p d) ((contrEquiv1 dot_S256x512_S512x1024_S256x1024_1_0_0_1_n_n 512 rfl rfl).symm r) = ix2 p r := funext fun a => Fin.ext (by
    match a with
    | ⟨0, _⟩ => exact lhs_second_0 _ _
    | ⟨1, _⟩ => exact (lhs_second_1 _ _).trans hk)
  have er : dot_S256x512_S512x1024_S256x1024_1_0_0_1_n_n.rhsIdx (ix2 p d) ((contrEquiv1 dot_S256x512_S512x1024_S256x1024_1_0_0_1_n_n 512 rfl rfl).symm r) = ix2 r d := funext fun a => Fin.ext (by
    match a with
    | ⟨0, _⟩ => exact (rhs_second_0 _ _).trans hk
    | ⟨1, _⟩ => exact rhs_second_1 _ _)
  rw [el, er]

/-! ## The payloads -/

/-- The tile of weights the body computes from a q block and a k block, at (p, r). -/
theorem tile_apply (x0 : Vec Ideal S1x256x1024 .f32) (x1 : Vec Ideal S1x512x1024 .f32) (p : Fin 256) (r : Fin 512) :
    k0_pay2 x0 x1 (ix2 p r) = ∑ d : Fin 1024, blockScaled x0 p d * blockScaled x1 r d := by
  unfold k0_pay2
  dsimp only
  rw [first_product_apply]
  refine Finset.sum_congr rfl fun d _ => ?_
  rw [truncf_apply, transpose_ix2_apply, truncf_apply]
  exact congrArg₂ (· * ·) (scale_apply x0 _ _ _ _ _ _ p d) (scale_apply x1 _ _ _ _ _ _ r d)

/-- The tile as stored (with its leading unit axis), at (0, p, r). -/
theorem stored_tile_apply (x0 : Vec Ideal S1x256x1024 .f32) (x1 : Vec Ideal S1x512x1024 .f32) (p : Fin 256) (r : Fin 512) :
    k0_pay3 x0 x1 (ix3 (0 : Fin 1) p r) = k0_pay2 x0 x1 (ix2 p r) := by
  unfold k0_pay3
  exact shapeCast_ab_1ab_apply _ _ _ p r

/-- The block the body resets the output to is zero. -/
theorem reset_apply (p : Fin 256) (d : Fin 1024) : k0_pay4 (F := Ideal) (ix3 (0 : Fin 1) p d) = 0 := by
  unfold k0_pay4
  rw [shapeCast_ab_1ab_apply, broadcast_apply]
  exact Ideal.ofBits_zero_f32

/-- The output block after the body: what it held, plus the tile applied to the v block. -/
theorem update_apply (x0 : Vec Ideal S1x256x1024 .f32) (x1 : Vec Ideal S1x512x1024 .f32) (x2 : Vec Ideal S1x512x1024 .f32)
    (xo : Vec Ideal S1x256x1024 .f32) (p : Fin 256) (d : Fin 1024) :
    k0_pay1 (k0_pay5 x0 x1) (k0_pay6 x2) xo (ix3 (0 : Fin 1) p d)
      = xo (ix3 (0 : Fin 1) p d) + ∑ r : Fin 512, k0_pay2 x0 x1 (ix2 p r) * x2 (ix3 (0 : Fin 1) r d) := by
  unfold k0_pay1
  rw [shapeCast_ab_1ab_apply, addf_apply, shapeCast_1ab_ab_apply, second_product_apply]
  refine congrArg (_ + ·) (Finset.sum_congr rfl fun r _ => ?_)
  unfold k0_pay5 k0_pay6
  rw [truncf_apply, truncf_apply, shapeCast_1ab_ab_apply]

end Cert.Attn.Body

end
-- ==== Proof.KernelValue.lean ====
/-
  What the kernel's two result arrays hold after the run, as functions of q, k and v.

  The grid has 4 · 16 · 8 points; point t works on batch t / 128, on the block of 256 query rows number
  (t / 8) mod 16 and on the group of 512 key rows number t mod 8. At every point the body writes the tile of
  weights of those query rows against those key rows, and the tiles of all points fill the array of weights.
  The output block of a query block is carried through its eight consecutive points: set to the first group's
  contribution at the first, increased by each later group's contribution, and written back after the eighth,
  when it is the sum of the eight groups' contributions, which is the sum over all 4096 key rows.
-/
import proofs.«108234_j69080253989708_1_alg».proof.Proof.Gen.KernelIdeal.Value
import proofs.«108234_j69080253989708_1_alg».proof.Proof.Pieces
import proofs.«108234_j69080253989708_1_alg».proof.Proof.Payload
import proofs.«108234_j69080253989708_1_alg».proof.Proof.Spec
import Idealize.ShloMosaic.Lib.Pipeline.Value
import Idealize.ShloMosaic.Lib.ValueIdx

noncomputable section

namespace Cert.Attn.Kernel

open Idealize.ShloMosaic Idealize.ShloMosaic.TcCoe Idealize.SL.Sem Idealize.ShloMosaic.ValueIdx
open Cert.KernelIdeal Cert.KernelIdeal.Gen Cert.Attn Cert.Attn.Body
open Idealize.ShloMosaic.Pipeline (Dat)

variable (m : (ℓ : Loc nD τ sig) → Buf (Elt Ideal) ℓ) (ρ : Dev nD → PrngReg)

/-- The three argument arrays as the region finds them. -/
abbrev qArr (c : Dev nD) : Sx.Idx → EReal := V m c main_arg0
abbrev kArr (c : Dev nD) : Sx.Idx → EReal := V m c main_arg1
abbrev vArr (c : Dev nD) : Sx.Idx → EReal := V m c main_arg2
/-- The three input blocks at point t. -/
abbrev qBlk (c : Dev nD) (t : Fin cfg0.N) : Vec Ideal S1x256x1024 .f32 := iblk m c 0 t
abbrev kBlk (c : Dev nD) (t : Fin cfg0.N) : Vec Ideal S1x512x1024 .f32 := iblk m c 1 t
abbrev vBlk (c : Dev nD) (t : Fin cfg0.N) : Vec Ideal S1x512x1024 .f32 := iblk m c 2 t

/-! ## Which block each window is on at point t (decided over the 512 points) -/

theorem idx_q : ∀ t : Fin cfg0.N, win0_0.index t (0 : Fin 3) = t.val / 128 ∧ win0_0.index t (1 : Fin 3) = t.val / 8 % 16 ∧ win0_0.index t (2 : Fin 3) = 0 :=
  (by decide +kernel : ∀ t : Fin grid0.N, _)
theorem idx_k : ∀ t : Fin cfg0.N, win0_1.index t (0 : Fin 3) = t.val / 128 ∧ win0_1.index t (1 : Fin 3) = t.val % 8 ∧ win0_1.index t (2 : Fin 3) = 0 :=
  (by decide +kernel : ∀ t : Fin grid0.N, _)
theorem idx_v : ∀ t : Fin cfg0.N, win0_2.index t (0 : Fin 3) = t.val / 128 ∧ win0_2.index t (1 : Fin 3) = t.val % 8 ∧ win0_2.index t (2 : Fin 3) = 0 :=
  (by decide +kernel : ∀ t : Fin grid0.N, _)
theorem idx_o : ∀ t : Fin cfg0.N, win0_3.index t (0 : Fin 3) = t.val / 128 ∧ win0_3.index t (1 : Fin 3) = t.val / 8 % 16 ∧ win0_3.index t (2 : Fin 3) = 0 :=
  (by decide +kernel : ∀ t : Fin grid0.N, _)
theorem idx_w : ∀ t : Fin cfg0.N, win0_4.index t (0 : Fin 3) = t.val / 128 ∧ win0_4.index t (1 : Fin 3) = t.val / 8 % 16 ∧ win0_4.index t (2 : Fin 3) = t.val % 8 :=
  (by decide +kernel : ∀ t : Fin grid0.N, _)

theorem point_lt (t : Fin cfg0.N) : t.val < 512 := lt_of_lt_of_eq t.isLt (show cfg0.N = 512 from N_0)

/-! ## The input blocks are pieces of the arrays -/

theorem qBlk_apply (c : Dev nD) (t : Fin cfg0.N) (p : Fin 256) (e : Fin 1024) :
    qBlk m c t (ix3 (0 : Fin 1) p e) = qArr m c (ix3 (batchOf (t.val / 128)) (rowOf (256 * (t.val / 8 % 16) + p.val)) e) := by
  obtain ⟨e0, e1, e2⟩ := idx_q t
  have hN := point_lt t
  show V m c main_arg0 (((cfg0.win 0).blk t).view.emb (ix3 (0 : Fin 1) p e)) = V m c main_arg0 _
  refine congrArg (V m c main_arg0) (funext fun a => Fin.ext ?_)
  match a with
  | ⟨0, _⟩ => show win0_0.index t (0 : Fin 3) * 1 + 1 * 0 = t.val / 128 % 4; omega
  | ⟨1, _⟩ => show win0_0.index t (1 : Fin 3) * 256 + 1 * p.val = (256 * (t.val / 8 % 16) + p.val) % 4096; have := p.isLt; omega
  | ⟨2, _⟩ => show win0_0.index t (2 : Fin 3) * 1024 + 1 * e.val = e.val; omega

theorem kBlk_apply (c : Dev nD) (t : Fin cfg0.N) (r : Fin 512) (e : Fin 1024) :
    kBlk m c t (ix3 (0 : Fin 1) r e) = kArr m c (ix3 (batchOf (t.val / 128)) (rowOf (512 * (t.val % 8) + r.val)) e) := by
  obtain ⟨e0, e1, e2⟩ := idx_k t
  have hN := point_lt t
  show V m c main_arg1 (((cfg0.win 1).blk t).view.emb (ix3 (0 : Fin 1) r e)) = V m c main_arg1 _
  refine congrArg (V m c main_arg1) (funext fun a => Fin.ext ?_)
  match a with
  | ⟨0, _⟩ => show win0_1.index t (0 : Fin 3) * 1 + 1 * 0 = t.val / 128 % 4; omega
  | ⟨1, _⟩ => show win0_1.index t (1 : Fin 3) * 512 + 1 * r.val = (512 * (t.val % 8) + r.val) % 4096; have := r.isLt; omega
  | ⟨2, _⟩ => show win0_1.index t (2 : Fin 3) * 1024 + 1 * e.val = e.val; omega

theorem vBlk_apply (c : Dev nD) (t : Fin cfg0.N) (r : Fin 512) (e : Fin 1024) :
    vBlk m c t (ix3 (0 : Fin 1) r e) = vArr m c (ix3 (batchOf (t.val / 128)) (rowOf (512 * (t.val % 8) + r.val)) e) := by
  obtain ⟨e0, e1, e2⟩ := idx_v t
  have hN := point_lt t
  show V m c main_arg2 (((cfg0.win 2).blk t).view.emb (ix3 (0 : Fin 1) r e)) = V m c main_arg2 _
  refine congrArg (V m c main_arg2) (funext fun a => Fin.ext ?_)
  match a with
  | ⟨0, _⟩ => show win0_2.index t (0 : Fin 3) * 1 + 1 * 0 = t.val / 128 % 4; omega
  | ⟨1, _⟩ => show win0_2.index t (1 : Fin 3) * 512 + 1 * r.val = (512 * (t.val % 8) + r.val) % 4096; have := r.isLt; omega
  | ⟨2, _⟩ => show win0_2.index t (2 : Fin 3) * 1024 + 1 * e.val = e.val; omega

/-- A scaled row of the q block is the scaled row of q. -/
theorem qBlk_scaled (c : Dev nD) (t : Fin cfg0.N) (p : Fin 256) (d : Fin 1024) :
    blockScaled (qBlk m c t) p d = scaled (qArr m c) (batchOf (t.val / 128)) (rowOf (256 * (t.val / 8 % 16) + p.val)) d := by
  unfold blockScaled scaled divisor
  simp only [qBlk_apply m c t]

/-- A scaled row of the k block is the scaled row of k. -/
theorem kBlk_scaled (c : Dev nD) (t : Fin cfg0.N) (r : Fin 512) (d : Fin 1024) :
    blockScaled (kBlk m c t) r d = scaled (kArr m c) (batchOf (t.val / 128)) (rowOf (512 * (t.val % 8) + r.val)) d := by
  unfold blockScaled scaled divisor
  simp only [kBlk_apply m c t]

/-- The tile of weights at point t is the weights of its query rows against its key rows. -/
theorem tile_at (c : Dev nD) (t : Fin cfg0.N) (p : Fin 256) (r : Fin 512) :
    k0_pay2 (qBlk m c t) (kBlk m c t) (ix2 p r)
      = weight (qArr m c) (kArr m c) (batchOf (t.val / 128)) (rowOf (256 * (t.val / 8 % 16) + p.val)) (rowOf (512 * (t.val % 8) + r.val)) := by
  refine (tile_apply (qBlk m c t) (kBlk m c t) p r).trans ?_
  unfold weight
  simp only [qBlk_scaled m c t, kBlk_scaled m c t]

/-- The tile applied to the v block is the point's group's contribution to the output entry. -/
theorem contribution_at (c : Dev nD) (t : Fin cfg0.N) (p : Fin 256) (d : Fin 1024) :
    ∑ r : Fin 512, k0_pay2 (qBlk m c t) (kBlk m c t) (ix2 p r) * vBlk m c t (ix3 (0 : Fin 1) r d)
      = tile (qArr m c) (kArr m c) (vArr m c) (batchOf (t.val / 128)) (rowOf (256 * (t.val / 8 % 16) + p.val)) d (t.val % 8) := by
  unfold tile
  simp only [tile_at m c t, vBlk_apply m c t]

/-! ## What the two output blocks hold after the body at point t -/

/-- The tile block holds the tile, at every point. -/
theorem tile_block (c : Dev nD) (t : Fin cfg0.N) : (outsAt0 m c t.val t.isLt).2 = k0_pay3 (qBlk m c t) (kBlk m c t) := by
  by_cases h0 : t.val % 8 = 0
  · rw [outsAt0_A m c t h0]
    dsimp only
    exact Pieces.first_tile (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t)
  · rw [outsAt0_B m c t h0]
    dsimp only
    exact Pieces.later_tile (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t)
      (outsAt0 m c (t.val - 1) (Nat.lt_of_le_of_lt (Nat.sub_le _ _) t.isLt)).1

/-- At the first of a query block's eight points the output block holds the first group's contribution. -/
theorem first_point (c : Dev nD) (t : Fin cfg0.N) (h0 : t.val % 8 = 0) (p : Fin 256) (d : Fin 1024) :
    (outsAt0 m c t.val t.isLt).1 (ix3 (0 : Fin 1) p d)
      = tile (qArr m c) (kArr m c) (vArr m c) (batchOf (t.val / 128)) (rowOf (256 * (t.val / 8 % 16) + p.val)) d (t.val % 8) := by
  rw [outsAt0_A m c t h0]
  dsimp only
  refine (congrFun (Pieces.first_output (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t)) (ix3 (0 : Fin 1) p d)).trans ?_
  refine (update_apply (qBlk m c t) (kBlk m c t) (vBlk m c t) (k0_pay4 (F := Ideal)) p d).trans ?_
  rw [reset_apply, zero_add]
  exact contribution_at m c t p d

/-- At a later point it holds what the point before left plus this group's contribution. -/
theorem later_point (c : Dev nD) (t : Fin cfg0.N) (h0 : ¬t.val % 8 = 0) (p : Fin 256) (d : Fin 1024) :
    (outsAt0 m c t.val t.isLt).1 (ix3 (0 : Fin 1) p d)
      = (outsAt0 m c (t.val - 1) (Nat.lt_of_le_of_lt (Nat.sub_le _ _) t.isLt)).1 (ix3 (0 : Fin 1) p d)
        + tile (qArr m c) (kArr m c) (vArr m c) (batchOf (t.val / 128)) (rowOf (256 * (t.val / 8 % 16) + p.val)) d (t.val % 8) := by
  rw [outsAt0_B m c t h0]
  dsimp only
  refine (congrFun (Pieces.later_output (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t)
    (outsAt0 m c (t.val - 1) (Nat.lt_of_le_of_lt (Nat.sub_le _ _) t.isLt)).1) (ix3 (0 : Fin 1) p d)).trans ?_
  refine (update_apply (qBlk m c t) (kBlk m c t) (vBlk m c t) _ p d).trans ?_
  exact congrArg (_ + ·) (contribution_at m c t p d)

/-- So after point n the output block holds the contributions of the groups 0, …, n mod 8 of its query block. -/
theorem output_block (c : Dev nD) (p : Fin 256) (d : Fin 1024) : ∀ (n : ℕ) (hn : n < cfg0.N),
    (outsAt0 m c n hn).1 (ix3 (0 : Fin 1) p d)
      = ∑ s ∈ Finset.range (n % 8 + 1), tile (qArr m c) (kArr m c) (vArr m c) (batchOf (n / 128)) (rowOf (256 * (n / 8 % 16) + p.val)) d s := by
  intro n
  induction n with
  | zero =>
    intro hn
    refine (first_point m c ⟨0, hn⟩ rfl p d).trans ?_
    exact (Finset.sum_range_one _).symm
  | succ k ih =>
    intro hn
    by_cases h0 : (k + 1) % 8 = 0
    · refine (first_point m c ⟨k + 1, hn⟩ h0 p d).trans ?_
      show tile _ _ _ (batchOf ((k + 1) / 128)) (rowOf (256 * ((k + 1) / 8 % 16) + p.val)) d ((k + 1) % 8) = _
      rw [h0]
      exact (Finset.sum_range_one _).symm
    · refine (later_point m c ⟨k + 1, hn⟩ h0 p d).trans ?_
      show (outsAt0 m c k _).1 (ix3 (0 : Fin 1) p d)
        + tile _ _ _ (batchOf ((k + 1) / 128)) (rowOf (256 * ((k + 1) / 8 % 16) + p.val)) d ((k + 1) % 8) = _
      have e1 : (k + 1) / 128 = k / 128 := by omega
      have e2 : (k + 1) / 8 = k / 8 := by omega
      have e3 : (k + 1) % 8 = k % 8 + 1 := by omega
      rw [ih (Nat.lt_of_succ_lt hn), e1, e2, e3, Finset.sum_range_succ _ (k % 8 + 1)]

/-! ## The array of weights -/

theorem mem_weights_block (t : Fin cfg0.N) (i : S4x4096x4096.Idx) :
    i ∈ ((cfg0.win 4).blk t).view.set ↔ ∀ a : Fin 3, win0_4.index t a * S1x256x512.size a ≤ (i a).val ∧ (i a).val < win0_4.index t a * S1x256x512.size a + S1x256x512.size a := by
  show i ∈ ((View.whole main_v0_1).slice (win0_4.rect t)).set ↔ _
  rw [View.set_slice_whole, Rect.mem_set_unit]
  exact Iff.rfl

/-- What point t writes back to the weights is its block of the array of weights. -/
theorem weights_flushed (c : Dev nD) (t : Fin cfg0.N) :
    (dats m 0 c).flushed 4 t = ((cfg0.win 4).blk t).view.read (Elt Ideal) (weights (qArr m c) (kArr m c)) := by
  rw [Cert.KernelIdeal.Value.flushed4, tile_block]
  obtain ⟨e0, e1, e2⟩ := idx_w t
  have hN := point_lt t
  funext j
  have hj0 : (j 0).val < 1 := (j 0).isLt
  have hj1 : (j 1).val < 256 := (j 1).isLt
  have hj2 : (j 2).val < 512 := (j 2).isLt
  show k0_pay3 (qBlk m c t) (kBlk m c t) ((cfg0.win 4).xinj (grid0.coords t) j)
    = weights (qArr m c) (kArr m c) (((cfg0.win 4).blk t).view.emb j)
  have hx : (cfg0.win 4).xinj (grid0.coords t) j = ix3 (0 : Fin 1) (⟨(j 1).val, hj1⟩ : Fin 256) (⟨(j 2).val, hj2⟩ : Fin 512) :=
    funext fun a => Fin.ext (by
      match a with
      | ⟨0, _⟩ => show (j 0).val = 0; omega
      | ⟨1, _⟩ => rfl
      | ⟨2, _⟩ => rfl)
  have he : ((cfg0.win 4).blk t).view.emb j
      = ix3 (batchOf (t.val / 128)) (rowOf (256 * (t.val / 8 % 16) + (j 1).val)) (rowOf (512 * (t.val % 8) + (j 2).val)) :=
    funext fun a => Fin.ext (by
      match a with
      | ⟨0, _⟩ => show win0_4.index t (0 : Fin 3) * 1 + 1 * (j 0).val = t.val / 128 % 4; omega
      | ⟨1, _⟩ => show win0_4.index t (1 : Fin 3) * 256 + 1 * (j 1).val = (256 * (t.val / 8 % 16) + (j 1).val) % 4096; omega
      | ⟨2, _⟩ => show win0_4.index t (2 : Fin 3) * 512 + 1 * (j 2).val = (512 * (t.val % 8) + (j 2).val) % 4096; omega)
  rw [hx, he, stored_tile_apply]
  exact tile_at m c t _ _

/-- Every entry of the array of weights is in some point's block. -/
theorem weights_cover (i : S4x4096x4096.Idx) :
    ∃ t : Fin cfg0.N, (cfg0.win 4).flush t = true ∧ i ∈ ((cfg0.win 4).blk t).view.set := by
  have h0 : (i 0).val < 4 := (i 0).isLt
  have h1 : (i 1).val < 4096 := (i 1).isLt
  have h2 : (i 2).val < 4096 := (i 2).isLt
  have hlt : 128 * (i 0).val + 8 * ((i 1).val / 256) + (i 2).val / 512 < cfg0.N := by
    rw [show cfg0.N = 512 from N_0]; omega
  refine ⟨⟨128 * (i 0).val + 8 * ((i 1).val / 256) + (i 2).val / 512, hlt⟩, flush0_4 _, ?_⟩
  obtain ⟨e0, e1, e2⟩ := idx_w ⟨128 * (i 0).val + 8 * ((i 1).val / 256) + (i 2).val / 512, hlt⟩
  rw [mem_weights_block]
  intro a
  match a with
  | ⟨0, _⟩ => show win0_4.index _ (0 : Fin 3) * 1 ≤ (i 0).val ∧ (i 0).val < win0_4.index _ (0 : Fin 3) * 1 + 1; dsimp only at e0; omega
  | ⟨1, _⟩ => show win0_4.index _ (1 : Fin 3) * 256 ≤ (i 1).val ∧ (i 1).val < win0_4.index _ (1 : Fin 3) * 256 + 256; dsimp only at e1; omega
  | ⟨2, _⟩ => show win0_4.index _ (2 : Fin 3) * 512 ≤ (i 2).val ∧ (i 2).val < win0_4.index _ (2 : Fin 3) * 512 + 512; dsimp only at e2; omega

/-- The array of weights after the run. -/
theorem weights_final (c : Dev nD) : (dats m 0 c).arrAt 4 cfg0.N = weights (qArr m c) (kArr m c) :=
  (dats m 0 c).arrAt_eq_of_cover 4 (weights (qArr m c) (kArr m c)) (fun t _ => weights_flushed m c t) weights_cover

/-! ## The array of outputs -/

theorem mem_outputs_block (t : Fin cfg0.N) (i : S4x4096x1024.Idx) :
    i ∈ ((cfg0.win 3).blk t).view.set ↔ ∀ a : Fin 3, win0_3.index t a * S1x256x1024.size a ≤ (i a).val ∧ (i a).val < win0_3.index t a * S1x256x1024.size a + S1x256x1024.size a := by
  show i ∈ ((View.whole main_v0_0).slice (win0_3.rect t)).set ↔ _
  rw [View.set_slice_whole, Rect.mem_set_unit]
  exact Iff.rfl

/-- What the last point of a query block writes back is its block of the array of outputs. -/
theorem outputs_flushed (c : Dev nD) (t : Fin cfg0.N) (hf : (cfg0.win 3).flush t = true) :
    (dats m 0 c).flushed 3 t = ((cfg0.win 3).blk t).view.read (Elt Ideal) (outputs (qArr m c) (kArr m c) (vArr m c)) := by
  have h7 : t.val % 8 = 7 := (flush0_3 t).mp hf
  rw [Cert.KernelIdeal.Value.flushed3]
  obtain ⟨e0, e1, e2⟩ := idx_o t
  have hN := point_lt t
  funext j
  have hj0 : (j 0).val < 1 := (j 0).isLt
  have hj1 : (j 1).val < 256 := (j 1).isLt
  have hj2 : (j 2).val < 1024 := (j 2).isLt
  show (outsAt0 m c t.val t.isLt).1 ((cfg0.win 3).xinj (grid0.coords t) j)
    = outputs (qArr m c) (kArr m c) (vArr m c) (((cfg0.win 3).blk t).view.emb j)
  have hx : (cfg0.win 3).xinj (grid0.coords t) j = ix3 (0 : Fin 1) (⟨(j 1).val, hj1⟩ : Fin 256) (⟨(j 2).val, hj2⟩ : Fin 1024) :=
    funext fun a => Fin.ext (by
      match a with
      | ⟨0, _⟩ => show (j 0).val = 0; omega
      | ⟨1, _⟩ => rfl
      | ⟨2, _⟩ => rfl)
  have he : ((cfg0.win 3).blk t).view.emb j
      = ix3 (batchOf (t.val / 128)) (rowOf (256 * (t.val / 8 % 16) + (j 1).val)) (⟨(j 2).val, hj2⟩ : Fin 1024) :=
    funext fun a => Fin.ext (by
      match a with
      | ⟨0, _⟩ => show win0_3.index t (0 : Fin 3) * 1 + 1 * (j 0).val = t.val / 128 % 4; omega
      | ⟨1, _⟩ => show win0_3.index t (1 : Fin 3) * 256 + 1 * (j 1).val = (256 * (t.val / 8 % 16) + (j 1).val) % 4096; omega
      | ⟨2, _⟩ => show win0_3.index t (2 : Fin 3) * 1024 + 1 * (j 2).val = (j 2).val; omega)
  rw [hx, he, output_block m c _ _ t.val t.isLt, h7]
  exact (output_eq_tiles _ _ _ _ _ _).symm

/-- Every entry of the array of outputs is in the block of its query block's last point. -/
theorem outputs_cover (i : S4x4096x1024.Idx) :
    ∃ t : Fin cfg0.N, (cfg0.win 3).flush t = true ∧ i ∈ ((cfg0.win 3).blk t).view.set := by
  have h0 : (i 0).val < 4 := (i 0).isLt
  have h1 : (i 1).val < 4096 := (i 1).isLt
  have h2 : (i 2).val < 1024 := (i 2).isLt
  have hlt : 128 * (i 0).val + 8 * ((i 1).val / 256) + 7 < cfg0.N := by
    rw [show cfg0.N = 512 from N_0]; omega
  refine ⟨⟨128 * (i 0).val + 8 * ((i 1).val / 256) + 7, hlt⟩, (flush0_3 _).mpr (by dsimp only; omega), ?_⟩
  obtain ⟨e0, e1, e2⟩ := idx_o ⟨128 * (i 0).val + 8 * ((i 1).val / 256) + 7, hlt⟩
  rw [mem_outputs_block]
  intro a
  match a with
  | ⟨0, _⟩ => show win0_3.index _ (0 : Fin 3) * 1 ≤ (i 0).val ∧ (i 0).val < win0_3.index _ (0 : Fin 3) * 1 + 1; dsimp only at e0; omega
  | ⟨1, _⟩ => show win0_3.index _ (1 : Fin 3) * 256 ≤ (i 1).val ∧ (i 1).val < win0_3.index _ (1 : Fin 3) * 256 + 256; dsimp only at e1; omega
  | ⟨2, _⟩ => show win0_3.index _ (2 : Fin 3) * 1024 ≤ (i 2).val ∧ (i 2).val < win0_3.index _ (2 : Fin 3) * 1024 + 1024; dsimp only at e2; omega

/-- The array of outputs after the run. -/
theorem outputs_final (c : Dev nD) : (dats m 0 c).arrAt 3 cfg0.N = outputs (qArr m c) (kArr m c) (vArr m c) :=
  (dats m 0 c).arrAt_eq_of_cover 3 (outputs (qArr m c) (kArr m c) (vArr m c)) (outputs_flushed m c) outputs_cover

/-! ## The run -/

/-- Every weakly fair execution of the kernel terminates with the two result arrays at the specification's
    outputs and weights of the argument arrays, the arguments unchanged. -/
theorem run : θ_run defs (onTc (τ := τ) (main (F := Ideal))) ⟨m, fun _ => 0, ρ⟩ fun r => ∀ c : Dev nD,
      r.2.mem ((c : Thread nD τ).loc main_v0_0)
        = outputs (m ((c : Thread nD τ).loc main_arg0)) (m ((c : Thread nD τ).loc main_arg1)) (m ((c : Thread nD τ).loc main_arg2))
      ∧ r.2.mem ((c : Thread nD τ).loc main_v0_1)
        = weights (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (outputs_final m c), (h c).2.1.trans (weights_final m c), (h c).2.2⟩)
    (Cert.KernelIdeal.Value.run_blocks m ρ)

end Cert.Attn.Kernel

end
-- ==== Proof.lean ====
/-
  Attention without softmax: the kernel against its reference, over the extended reals.

  Both programs divide every row of q and of k by the larger of its Euclidean norm and the same small constant,
  take the inner products of the scaled rows as weights, and apply the weights to v. The reference does it with
  two whole matrix products per batch. The kernel works on blocks: for each block of 256 query rows it visits the
  eight groups of 512 key rows in turn, writes the tile of weights of the block against the group, and keeps in
  the output block the running sum of the tiles applied to the groups' rows of v, which after the eighth group is
  the sum over all 4096 key rows. The kernel's changes of float format are the identity on the extended reals, and
  regrouping a sum uses only commutativity and associativity of addition, so nothing needs the inputs to be finite.

  Spec.lean states the two results as functions of q, k, v and the regrouping of the sum; RefValue.lean reads the
  reference's run as those functions; Payload.lean and Pieces.lean read one run of the kernel's body; KernelValue.lean
  follows the output block through its eight points and reads the two result arrays after the whole run. The three
  programs run and keep their arguments (the frames); the idealized kernel is the kernel's text read over the
  extended reals (nothing was rewritten).
-/
import proofs.«108234_j69080253989708_1_alg».proof.Defs
import proofs.«108234_j69080253989708_1_alg».proof.Proof.Gen.Kernel
import proofs.«108234_j69080253989708_1_alg».proof.Proof.Gen.Kernel.Skeleton
import proofs.«108234_j69080253989708_1_alg».proof.Proof.Gen.Kernel.Launch
import proofs.«108234_j69080253989708_1_alg».proof.Proof.Gen.Kernel.Points
import proofs.«108234_j69080253989708_1_alg».proof.Proof.Gen.Kernel.Frame
import proofs.«108234_j69080253989708_1_alg».proof.Proof.Gen.KernelIdeal
import proofs.«108234_j69080253989708_1_alg».proof.Proof.Gen.KernelIdeal.Skeleton
import proofs.«108234_j69080253989708_1_alg».proof.Proof.Gen.KernelIdeal.Launch
import proofs.«108234_j69080253989708_1_alg».proof.Proof.Gen.KernelIdeal.Points
import proofs.«108234_j69080253989708_1_alg».proof.Proof.Gen.KernelIdeal.Frame
import proofs.«108234_j69080253989708_1_alg».proof.Proof.Gen.KernelIdeal.Value
import proofs.«108234_j69080253989708_1_alg».proof.Proof.Gen.ReferenceIdeal
import proofs.«108234_j69080253989708_1_alg».proof.Proof.Gen.ReferenceIdeal.Run
import proofs.«108234_j69080253989708_1_alg».proof.Proof.Gen.ReferenceIdeal.Read
import proofs.«108234_j69080253989708_1_alg».proof.Proof.Gen.Pre_finite_inputs
import proofs.«108234_j69080253989708_1_alg».proof.Proof.RefValue
import proofs.«108234_j69080253989708_1_alg».proof.Proof.KernelValue
import Idealize.ShloMosaic.Adequacy
import Idealize.ShloMosaic.Init

noncomputable section

namespace Cert.Proof

open Idealize.ShloMosaic Idealize.SL.Sem

/-- The kernel runs and keeps its arguments. -/
theorem frame_kernel : Cert.frame_Kernel := fun m ρ _ => Cert.Kernel.Gen.frame m ρ

/-- The idealized kernel runs and keeps its arguments. -/
theorem frame_kernel_ideal : Cert.frame_KernelIdeal := fun m ρ _ => Cert.KernelIdeal.Gen.frame m ρ

/-- The reference runs and keeps its arguments: its run, with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on q, k and v both programs end with the same outputs and the same weights:
    the specification's, of the common arguments. -/
theorem algebraic : Cert.algebraic_KernelIdeal_ReferenceIdeal := by
  intro m ρ m' ρ' _ hagree
  refine ⟨_, _, Cert.Attn.Kernel.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v17_eq, Cert.Attn.Ref.outputs_eq, (hagree c).1, (hagree c).2.1,
      (hagree c).2.2]
  · rw [(h c).2.1, Cert.ReferenceIdeal.Read.val_main_v16_eq, Cert.Attn.Ref.weights_eq, (hagree c).1, (hagree c).2.1]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
